-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x5000000 : Shape := ⟨2, ![2, 5000000]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500000x1 .f32) (main_arg1 : FVec F S1x16 .f32) (main_arg2 : FVec F S16 .f32) (main_arg3 : FVec F S16x1 .f32) (main_arg4 : FVec F S1 .f32) (main_arg5 : IVec S2x5000000 32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_v13 main_v16
-- ==== Kernel.lean ====
abbrev S500000x1 : Shape := ⟨2, ![500000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S500000 : Shape := ⟨1, ![500000]⟩
abbrev S5500000 : Shape := ⟨1, ![5500000]⟩
abbrev S_ : Shape := ⟨0, ![]⟩
abbrev S5500000x1 : Shape := ⟨2, ![5500000, 1]⟩
abbrev S500000x16 : Shape := ⟨2, ![500000, 16]⟩
abbrev S5000x1 : Shape := ⟨2, ![5000, 1]⟩
abbrev S5000x16 : Shape := ⟨2, ![5000, 16]⟩
abbrev S5500000x16 : Shape := ⟨2, ![5500000, 16]⟩
abbrev S5000 : Shape := ⟨1, ![5000]⟩
abbrev S1x1 : Shape := ⟨2, ![1, 1]⟩

abbrev nBuf : Space → Nat
  | .hbm => 80
  | .vmem => 15
  | .smem => 0
  | _ => 0

abbrev bufTy : (tb : Table) → Fin (tcTables nBuf tb) → BufTy
  | .hbm, ⟨0, _⟩ => ⟨S500000x1, .f32⟩
  | .hbm, ⟨1, _⟩ => ⟨S1x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S500000, .i32⟩
  | .hbm, ⟨11, _⟩ => ⟨S5500000, .i32⟩
  | .hbm, ⟨12, _⟩ => ⟨S5500000, .i32⟩
  | .hbm, ⟨13, _⟩ => ⟨S_, .f32⟩
  | .hbm, ⟨14, _⟩ => ⟨S5500000, .f32⟩
  | .hbm, ⟨15, _⟩ => ⟨S_, .f32⟩
  | .hbm, ⟨16, _⟩ => ⟨S500000, .f32⟩
  | .hbm, ⟨17, _⟩ => ⟨S5500000x1, .i32⟩
  | .hbm, ⟨18, _⟩ => ⟨S500000, .f32⟩
  | .hbm, ⟨19, _⟩ => ⟨S500000x1, .f32⟩
  | .hbm, ⟨20, _⟩ => ⟨S500000x1, .f32⟩
  | .hbm, ⟨21, _⟩ => ⟨S500000x16, .f32⟩
  | .hbm, ⟨22, _⟩ => ⟨S500000, .f32⟩
  | .hbm, ⟨23, _⟩ => ⟨S_, .i32⟩
  | .hbm, ⟨24, _⟩ => ⟨S5500000, .i32⟩
  | .hbm, ⟨25, _⟩ => ⟨S5500000, .i1⟩
  | .hbm, ⟨26, _⟩ => ⟨S_, .i32⟩
  | .hbm, ⟨27, _⟩ => ⟨S5500000, .i32⟩
  | .hbm, ⟨28, _⟩ => ⟨S5500000, .i32⟩
  | .hbm, ⟨29, _⟩ => ⟨S5500000, .i32⟩
  | .hbm, ⟨30, _⟩ => ⟨S5500000x1, .i32⟩
  | .hbm, ⟨31, _⟩ => ⟨S5500000, .f32⟩
  | .hbm, ⟨32, _⟩ => ⟨S_, .i32⟩
  | .hbm, ⟨33, _⟩ => ⟨S5500000, .i32⟩
  | .hbm, ⟨34, _⟩ => ⟨S5500000, .i1⟩
  | .hbm, ⟨35, _⟩ => ⟨S_, .i32⟩
  | .hbm, ⟨36, _⟩ => ⟨S5500000, .i32⟩
  | .hbm, ⟨37, _⟩ => ⟨S5500000, .i32⟩
  | .hbm, ⟨38, _⟩ => ⟨S5500000, .i32⟩
  | .hbm, ⟨39, _⟩ => ⟨S5500000x1, .i32⟩
  | .hbm, ⟨40, _⟩ => ⟨S5500000, .f32⟩
  | .hbm, ⟨41, _⟩ => ⟨S5500000, .f32⟩
  | .hbm, ⟨42, _⟩ => ⟨S_, .i32⟩
  | .hbm, ⟨43, _⟩ => ⟨S5500000, .i32⟩
  | .hbm, ⟨44, _⟩ => ⟨S5500000, .i1⟩
  | .hbm, ⟨45, _⟩ => ⟨S_, .i32⟩
  | .hbm, ⟨46, _⟩ => ⟨S5500000, .i32⟩
  | .hbm, ⟨47, _⟩ => ⟨S5500000, .i32⟩
  | .hbm, ⟨48, _⟩ => ⟨S5500000, .i32⟩
  | .hbm, ⟨49, _⟩ => ⟨S5500000x1, .i32⟩
  | .hbm, ⟨50, _⟩ => ⟨S5500000x16, .f32⟩
  | .hbm, ⟨51, _⟩ => ⟨S5500000x1, .f32⟩
  | .hbm, ⟨52, _⟩ => ⟨S5500000x16, .f32⟩
  | .hbm, ⟨53, _⟩ => ⟨S5500000x16, .f32⟩
  | .hbm, ⟨54, _⟩ => ⟨S_, .f32⟩
  | .hbm, ⟨55, _⟩ => ⟨S500000x16, .f32⟩
  | .hbm, ⟨56, _⟩ => ⟨S5500000x1, .i32⟩
  | .hbm, ⟨57, _⟩ => ⟨S500000x16, .f32⟩
  | .hbm, ⟨58, _⟩ => ⟨S1x16, .f32⟩
  | .hbm, ⟨59, _⟩ => ⟨S1x16, .f32⟩
  | .hbm, ⟨60, _⟩ => ⟨S500000x1, .f32⟩
  | .hbm, ⟨61, _⟩ => ⟨S_, .i32⟩
  | .hbm, ⟨62, _⟩ => ⟨S5500000, .i32⟩
  | .hbm, ⟨63, _⟩ => ⟨S5500000, .i1⟩
  | .hbm, ⟨64, _⟩ => ⟨S_, .i32⟩
  | .hbm, ⟨65, _⟩ => ⟨S5500000, .i32⟩
  | .hbm, ⟨66, _⟩ => ⟨S5500000, .i32⟩
  | .hbm, ⟨67, _⟩ => ⟨S5500000, .i32⟩
  | .hbm, ⟨68, _⟩ => ⟨S5500000x1, .i32⟩
  | .hbm, ⟨69, _⟩ => ⟨S5500000x1, .f32⟩
  | .hbm, ⟨70, _⟩ => ⟨S5500000x1, .f32⟩
  | .hbm, ⟨71, _⟩ => ⟨S5500000x1, .f32⟩
  | .hbm, ⟨72, _⟩ => ⟨S_, .f32⟩
  | .hbm, ⟨73, _⟩ => ⟨S500000x1, .f32⟩
  | .hbm, ⟨74, _⟩ => ⟨S5500000x1, .i32⟩
  | .hbm, ⟨75, _⟩ => ⟨S500000x1, .f32⟩
  | .hbm, ⟨76, _⟩ => ⟨S1x1, .f32⟩
  | .hbm, ⟨77, _⟩ => ⟨S500000x1, .f32⟩
  | .hbm, ⟨78, _⟩ => ⟨S500000x1, .f32⟩
  | .hbm, ⟨79, _⟩ => ⟨S500000, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x16, .f32⟩
  | .local _ .vmem, ⟨5, _⟩ => ⟨S5000x1, .f32⟩
  | .local _ .vmem, ⟨6, _⟩ => ⟨S5000x1, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S1x16, .f32⟩
  | .local _ .vmem, ⟨12, _⟩ => ⟨S1x16, .f32⟩
  | .local _ .vmem, ⟨13, _⟩ => ⟨S5000x1, .f32⟩
  | .local _ .vmem, ⟨14, _⟩ => ⟨S5000x1, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S500000_S5500000_d0 : Shape.Concatenates [S5000000, S500000] S5500000 0
  bcast_S_S5500000 : S_.BroadcastsInDim S5500000 (![] : Fin 0 → Fin S5500000.rank)
  bcast_S_S500000 : S_.BroadcastsInDim S500000 (![] : Fin 0 → Fin S500000.rank)
  bcast_S5500000_S5500000x1_0 : S5500000.BroadcastsInDim S5500000x1 (![0] : Fin 1 → Fin S5500000x1.rank)
  shapeCasts_S500000_S500000x1 : S500000.ShapeCasts S500000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x16_S1x16_0_0 : ∀ a, (![0, 0] : Fin 2 → Nat) a + S1x16.size a ≤ S1x16.size a
  h_S1x16 : 0 < S1x16.numel
  broadcasts_S5000x1_S5000x16 : S5000x1.Broadcasts S5000x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S500000x1_S500000 : S500000x1.ShapeCasts S500000
  bcast_S5500000x1_S5500000x16_0_1 : S5500000x1.BroadcastsInDim S5500000x16 (![0, 1] : Fin 2 → Fin S5500000x16.rank)
  bcast_S_S500000x16 : S_.BroadcastsInDim S500000x16 (![] : Fin 0 → Fin S500000x16.rank)
  shapeCasts_S16_S1x16 : S16.ShapeCasts S1x16
  shapeCasts_S16x1_S1x16 : S16x1.ShapeCasts S1x16
  shapeCasts_S5000x16_S5000x16 : S5000x16.ShapeCasts S5000x16
  shapeCasts_S1x16_S1x16 : S1x16.ShapeCasts S1x16
  reduces_S5000x16_S5000 : S5000x16.Reduces [1] S5000
  shapeCasts_S5000_S5000x1 : S5000.ShapeCasts S5000x1
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000_S5500000x1_S5500000_n_0_0_1_wf : ScatterDims.WF S500000 S5500000x1 S5500000 [] [0] [0] 1
  gather_S500000_S5500000x1_S5500000_n_0_n_n_0_1_1_wf : GatherDims.WF S500000 S5500000x1 S5500000 [] [0] [] [0] [] 1 ![1]
  gather_S500000x16_S5500000x1_S5500000x16_1_0_n_n_0_1_116_wf : GatherDims.WF S500000x16 S5500000x1 S5500000x16 [1] [0] [] [0] [] 1 ![1, 16]
  scatter_S500000x16_S5500000x1_S5500000x16_1_0_0_1_wf : ScatterDims.WF S500000x16 S5500000x1 S5500000x16 [1] [0] [0] 1
  gather_S500000x1_S5500000x1_S5500000x1_1_0_n_n_0_1_11_wf : GatherDims.WF S500000x1 S5500000x1 S5500000x1 [1] [0] [] [0] [] 1 ![1, 1]
  scatter_S500000x1_S5500000x1_S5500000x1_1_0_0_1_wf : ScatterDims.WF S500000x1 S5500000x1 S5500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S500000x1.size a
  hwx0_0 : ∀ i : grid0.Coords, EltTy.bits .f32 = 32 ∨ (Rect.block (s := S500000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .f32 = 32 ∨ (Rect.block (s := S500000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S500000x1.size a
  hwx0_3 : ∀ i : grid0.Coords, EltTy.bits .f32 = 32 ∨ (Rect.block (s := S500000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S500000x16.size a
  hwx0_4 : ∀ i : grid0.Coords, EltTy.bits .f32 = 32 ∨ (Rect.block (s := S500000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S500000x16.size a
  hwx1_0 : ∀ i : grid1.Coords, EltTy.bits .f32 = 32 ∨ (Rect.block (s := S500000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S500000x1.size a
  hwx1_3 : ∀ i : grid1.Coords, EltTy.bits .f32 = 32 ∨ (Rect.block (s := S500000x1) S5000x1.size (cc1_transform_3 i) (hinb1_3 i)).WholeWords (EltTy.packing .f32)

variable [Facts₀]

def scatter_S500000_S5500000x1_S5500000_n_0_0_1 : ScatterDims S500000 S5500000x1 S5500000 where
  updateWindowDims := []
  insertedWindowDims := [0]
  scatterDimsToOperandDims := [0]
  indexVectorDim := 1
  wf := scatter_S500000_S5500000x1_S5500000_n_0_0_1_wf
def gather_S500000_S5500000x1_S5500000_n_0_n_n_0_1_1 : GatherDims S500000 S5500000x1 S5500000 where
  offsetDims := []
  collapsedSliceDims := [0]
  operandBatchingDims := []
  startIndicesBatchingDims := []
  startIndexMap := [0]
  indexVectorDim := 1
  sliceSizes := ![1]
  wf := gather_S500000_S5500000x1_S5500000_n_0_n_n_0_1_1_wf
def gather_S500000x16_S5500000x1_S5500000x16_1_0_n_n_0_1_116 : GatherDims S500000x16 S5500000x1 S5500000x16 where
  offsetDims := [1]
  collapsedSliceDims := [0]
  operandBatchingDims := []
  startIndicesBatchingDims := []
  startIndexMap := [0]
  indexVectorDim := 1
  sliceSizes := ![1, 16]
  wf := gather_S500000x16_S5500000x1_S5500000x16_1_0_n_n_0_1_116_wf
def scatter_S500000x16_S5500000x1_S5500000x16_1_0_0_1 : ScatterDims S500000x16 S5500000x1 S5500000x16 where
  updateWindowDims := [1]
  insertedWindowDims := [0]
  scatterDimsToOperandDims := [0]
  indexVectorDim := 1
  wf := scatter_S500000x16_S5500000x1_S5500000x16_1_0_0_1_wf
def gather_S500000x1_S5500000x1_S5500000x1_1_0_n_n_0_1_11 : GatherDims S500000x1 S5500000x1 S5500000x1 where
  offsetDims := [1]
  collapsedSliceDims := [0]
  operandBatchingDims := []
  startIndicesBatchingDims := []
  startIndexMap := [0]
  indexVectorDim := 1
  sliceSizes := ![1, 1]
  wf := gather_S500000x1_S5500000x1_S5500000x1_1_0_n_n_0_1_11_wf
def scatter_S500000x1_S5500000x1_S5500000x1_1_0_0_1 : ScatterDims S500000x1 S5500000x1 S5500000x1 where
  updateWindowDims := [1]
  insertedWindowDims := [0]
  scatterDimsToOperandDims := [0]
  indexVectorDim := 1
  wf := scatter_S500000x1_S5500000x1_S5500000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S5000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x1 : Shape := ⟨2, ![500000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S500000 : Shape := ⟨1, ![500000]⟩
abbrev S5500000 : Shape := ⟨1, ![5500000]⟩
abbrev S_ : Shape := ⟨0, ![]⟩
abbrev S5500000x1 : Shape := ⟨2, ![5500000, 1]⟩
abbrev S500000x16 : Shape := ⟨2, ![500000, 16]⟩
abbrev S5500000x16 : Shape := ⟨2, ![5500000, 16]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S500000x1, .f32⟩
  | .hbm, ⟨1, _⟩ => ⟨S1x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S500000, .i32⟩
  | .hbm, ⟨11, _⟩ => ⟨S5500000, .i32⟩
  | .hbm, ⟨12, _⟩ => ⟨S5500000, .i32⟩
  | .hbm, ⟨13, _⟩ => ⟨S_, .f32⟩
  | .hbm, ⟨14, _⟩ => ⟨S5500000, .f32⟩
  | .hbm, ⟨15, _⟩ => ⟨S_, .f32⟩
  | .hbm, ⟨16, _⟩ => ⟨S500000, .f32⟩
  | .hbm, ⟨17, _⟩ => ⟨S5500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S_, .f32⟩
  | .hbm, ⟨28, _⟩ => ⟨S500000, .f32⟩
  | .hbm, ⟨29, _⟩ => ⟨S500000, .f32⟩
  | .hbm, ⟨30, _⟩ => ⟨S_, .i32⟩
  | .hbm, ⟨31, _⟩ => ⟨S5500000, .i32⟩
  | .hbm, ⟨32, _⟩ => ⟨S5500000, .i1⟩
  | .hbm, ⟨33, _⟩ => ⟨S_, .i32⟩
  | .hbm, ⟨34, _⟩ => ⟨S5500000, .i32⟩
  | .hbm, ⟨35, _⟩ => ⟨S5500000, .i32⟩
  | .hbm, ⟨36, _⟩ => ⟨S5500000, .i32⟩
  | .hbm, ⟨37, _⟩ => ⟨S5500000x1, .i32⟩
  | .hbm, ⟨38, _⟩ => ⟨S5500000, .f32⟩
  | .hbm, ⟨39, _⟩ => ⟨S_, .i32⟩
  | .hbm, ⟨40, _⟩ => ⟨S5500000, .i32⟩
  | .hbm, ⟨41, _⟩ => ⟨S5500000, .i1⟩
  | .hbm, ⟨42, _⟩ => ⟨S_, .i32⟩
  | .hbm, ⟨43, _⟩ => ⟨S5500000, .i32⟩
  | .hbm, ⟨44, _⟩ => ⟨S5500000, .i32⟩
  | .hbm, ⟨45, _⟩ => ⟨S5500000, .i32⟩
  | .hbm, ⟨46, _⟩ => ⟨S5500000x1, .i32⟩
  | .hbm, ⟨47, _⟩ => ⟨S5500000, .f32⟩
  | .hbm, ⟨48, _⟩ => ⟨S5500000, .f32⟩
  | .hbm, ⟨49, _⟩ => ⟨S500000x16, .f32⟩
  | .hbm, ⟨50, _⟩ => ⟨S_, .i32⟩
  | .hbm, ⟨51, _⟩ => ⟨S5500000, .i32⟩
  | .hbm, ⟨52, _⟩ => ⟨S5500000, .i1⟩
  | .hbm, ⟨53, _⟩ => ⟨S_, .i32⟩
  | .hbm, ⟨54, _⟩ => ⟨S5500000, .i32⟩
  | .hbm, ⟨55, _⟩ => ⟨S5500000, .i32⟩
  | .hbm, ⟨56, _⟩ => ⟨S5500000, .i32⟩
  | .hbm, ⟨57, _⟩ => ⟨S5500000x1, .i32⟩
  | .hbm, ⟨58, _⟩ => ⟨S5500000x16, .f32⟩
  | .hbm, ⟨59, _⟩ => ⟨S5500000x1, .f32⟩
  | .hbm, ⟨60, _⟩ => ⟨S5500000x16, .f32⟩
  | .hbm, ⟨61, _⟩ => ⟨S5500000x16, .f32⟩
  | .hbm, ⟨62, _⟩ => ⟨S_, .f32⟩
  | .hbm, ⟨63, _⟩ => ⟨S500000x16, .f32⟩
  | .hbm, ⟨64, _⟩ => ⟨S5500000x1, .i32⟩
  | .hbm, ⟨65, _⟩ => ⟨S500000x16, .f32⟩
  | .hbm, ⟨66, _⟩ => ⟨S1x16, .f32⟩
  | .hbm, ⟨67, _⟩ => ⟨S500000x16, .f32⟩
  | .hbm, ⟨68, _⟩ => ⟨S500000x16, .f32⟩
  | .hbm, ⟨69, _⟩ => ⟨S_, .f32⟩
  | .hbm, ⟨70, _⟩ => ⟨S500000x16, .f32⟩
  | .hbm, ⟨71, _⟩ => ⟨S500000x16, .f32⟩
  | .hbm, ⟨72, _⟩ => ⟨S500000x1, .f32⟩
  | .hbm, ⟨73, _⟩ => ⟨S_, .i32⟩
  | .hbm, ⟨74, _⟩ => ⟨S5500000, .i32⟩
  | .hbm, ⟨75, _⟩ => ⟨S5500000, .i1⟩
  | .hbm, ⟨76, _⟩ => ⟨S_, .i32⟩
  | .hbm, ⟨77, _⟩ => ⟨S5500000, .i32⟩
  | .hbm, ⟨78, _⟩ => ⟨S5500000, .i32⟩
  | .hbm, ⟨79, _⟩ => ⟨S5500000, .i32⟩
  | .hbm, ⟨80, _⟩ => ⟨S5500000x1, .i32⟩
  | .hbm, ⟨81, _⟩ => ⟨S5500000x1, .f32⟩
  | .hbm, ⟨82, _⟩ => ⟨S5500000x1, .f32⟩
  | .hbm, ⟨83, _⟩ => ⟨S5500000x1, .f32⟩
  | .hbm, ⟨84, _⟩ => ⟨S_, .f32⟩
  | .hbm, ⟨85, _⟩ => ⟨S500000x1, .f32⟩
  | .hbm, ⟨86, _⟩ => ⟨S5500000x1, .i32⟩
  | .hbm, ⟨87, _⟩ => ⟨S500000x1, .f32⟩
  | .hbm, ⟨88, _⟩ => ⟨S1x1, .f32⟩
  | .hbm, ⟨89, _⟩ => ⟨S500000x1, .f32⟩
  | .hbm, ⟨90, _⟩ => ⟨S500000x1, .f32⟩
  | .hbm, ⟨91, _⟩ => ⟨S500000, .f32⟩
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S500000_S5500000_d0 : Shape.Concatenates [S5000000, S500000] S5500000 0
  bcast_S_S5500000 : S_.BroadcastsInDim S5500000 (![] : Fin 0 → Fin S5500000.rank)
  bcast_S_S500000 : S_.BroadcastsInDim S500000 (![] : Fin 0 → Fin S500000.rank)
  bcast_S5500000_S5500000x1_0 : S5500000.BroadcastsInDim S5500000x1 (![0] : Fin 1 → Fin S5500000x1.rank)
  bcast_S5500000x1_S5500000x16_0_1 : S5500000x1.BroadcastsInDim S5500000x16 (![0, 1] : Fin 2 → Fin S5500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  scatter_S500000_S5500000x1_S5500000_n_0_0_1_wf : ScatterDims.WF S500000 S5500000x1 S5500000 [] [0] [0] 1
  gather_S500000_S5500000x1_S5500000_n_0_n_n_0_1_1_wf : GatherDims.WF S500000 S5500000x1 S5500000 [] [0] [] [0] [] 1 ![1]
  dot_S500000x1_S1x16_S500000x16_1_0_0_1_n_n_wf : DotDims.WF S500000x1 S1x16 S500000x16 [1] [0] [0] [1] [] []
  gather_S500000x16_S5500000x1_S5500000x16_1_0_n_n_0_1_116_wf : GatherDims.WF S500000x16 S5500000x1 S5500000x16 [1] [0] [] [0] [] 1 ![1, 16]
  scatter_S500000x16_S5500000x1_S5500000x16_1_0_0_1_wf : ScatterDims.WF S500000x16 S5500000x1 S5500000x16 [1] [0] [0] 1
  dot_S500000x16_S16x1_S500000x1_1_0_0_1_n_n_wf : DotDims.WF S500000x16 S16x1 S500000x1 [1] [0] [0] [1] [] []
  gather_S500000x1_S5500000x1_S5500000x1_1_0_n_n_0_1_11_wf : GatherDims.WF S500000x1 S5500000x1 S5500000x1 [1] [0] [] [0] [] 1 ![1, 1]
  scatter_S500000x1_S5500000x1_S5500000x1_1_0_0_1_wf : ScatterDims.WF S500000x1 S5500000x1 S5500000x1 [1] [0] [0] 1

variable [Facts₀]

def scatter_S500000_S5500000x1_S5500000_n_0_0_1 : ScatterDims S500000 S5500000x1 S5500000 where
  updateWindowDims := []
  insertedWindowDims := [0]
  scatterDimsToOperandDims := [0]
  indexVectorDim := 1
  wf := scatter_S500000_S5500000x1_S5500000_n_0_0_1_wf
def gather_S500000_S5500000x1_S5500000_n_0_n_n_0_1_1 : GatherDims S500000 S5500000x1 S5500000 where
  offsetDims := []
  collapsedSliceDims := [0]
  operandBatchingDims := []
  startIndicesBatchingDims := []
  startIndexMap := [0]
  indexVectorDim := 1
  sliceSizes := ![1]
  wf := gather_S500000_S5500000x1_S5500000_n_0_n_n_0_1_1_wf
def dot_S500000x1_S1x16_S500000x16_1_0_0_1_n_n : DotDims S500000x1 S1x16 S500000x16 where
  lhsContracting := [1]
  rhsContracting := [0]
  lhsNonContracting := [0]
  rhsNonContracting := [1]
  lhsBatch := []
  rhsBatch := []
  wf := dot_S500000x1_S1x16_S500000x16_1_0_0_1_n_n_wf
def gather_S500000x16_S5500000x1_S5500000x16_1_0_n_n_0_1_116 : GatherDims S500000x16 S5500000x1 S5500000x16 where
  offsetDims := [1]
  collapsedSliceDims := [0]
  operandBatchingDims := []
  startIndicesBatchingDims := []
  startIndexMap := [0]
  indexVectorDim := 1
  sliceSizes := ![1, 16]
  wf := gather_S500000x16_S5500000x1_S5500000x16_1_0_n_n_0_1_116_wf
def scatter_S500000x16_S5500000x1_S5500000x16_1_0_0_1 : ScatterDims S500000x16 S5500000x1 S5500000x16 where
  updateWindowDims := [1]
  insertedWindowDims := [0]
  scatterDimsToOperandDims := [0]
  indexVectorDim := 1
  wf := scatter_S500000x16_S5500000x1_S5500000x16_1_0_0_1_wf
def dot_S500000x16_S16x1_S500000x1_1_0_0_1_n_n : DotDims S500000x16 S16x1 S500000x1 where
  lhsContracting := [1]
  rhsContracting := [0]
  lhsNonContracting := [0]
  rhsNonContracting := [1]
  lhsBatch := []
  rhsBatch := []
  wf := dot_S500000x16_S16x1_S500000x1_1_0_0_1_n_n_wf
def gather_S500000x1_S5500000x1_S5500000x1_1_0_n_n_0_1_11 : GatherDims S500000x1 S5500000x1 S5500000x1 where
  offsetDims := [1]
  collapsedSliceDims := [0]
  operandBatchingDims := []
  startIndicesBatchingDims := []
  startIndexMap := [0]
  indexVectorDim := 1
  sliceSizes := ![1, 1]
  wf := gather_S500000x1_S5500000x1_S5500000x1_1_0_n_n_0_1_11_wf
def scatter_S500000x1_S5500000x1_S5500000x1_1_0_0_1 : ScatterDims S500000x1 S5500000x1 S5500000x1 where
  updateWindowDims := [1]
  insertedWindowDims := [0]
  scatterDimsToOperandDims := [0]
  indexVectorDim := 1
  wf := scatter_S500000x1_S5500000x1_S5500000x1_1_0_0_1_wf

class Facts : Prop extends Facts₀ where

variable [Facts]
-- ==== Proof.Chain.lean ====
/-
  The host text the two programs share, as named functions of the pieces that differ.

  Both programs build the edge lists (the given edges followed by one self loop per node), count
  in-degrees by a scatter-add of ones, weight every edge by dinv[src] · dinv[dst], and run two rounds of
  message passing: gather the source rows, scale by the edge weight, scatter-add into the target rows.
  They differ only in how dinv, the first linear map and the second linear map are computed; those
  enter here as the parameters `D`, `H` and `h2`.
-/
import proofs.«167294_j87720412054223_1_alg».proof.KernelIdeal
import proofs.«167294_j87720412054223_1_alg».proof.Proof.Gen.KernelIdeal

noncomputable section

namespace Cert.KernelIdeal.Hand

open Cert.KernelIdeal Cert.KernelIdeal.Gen Idealize.ShloMosaic

variable {F : FTy → Type} [FloatOps F]

/-- The source ends of the 5500000 edges: row 0 of the edge array, then the nodes themselves. -/
def srcEnds (x5 : IVec S2x5000000 32) : IVec S5500000 32 :=
  concatenate S5500000 0 [⟨S5000000, shapeCast S5000000 (extractStridedSlice S1x5000000 ![0, 0] x5 slices_S2x5000000_S1x5000000_0_0) shapeCasts_S1x5000000_S5000000⟩, ⟨S500000, iotaInDim S500000 32 0⟩] concatenates_S5000000_S500000_S5500000_d0

/-- The target ends of the 5500000 edges: row 1 of the edge array, then the nodes themselves. -/
def dstEnds (x5 : IVec S2x5000000 32) : IVec S5500000 32 :=
  concatenate S5500000 0 [⟨S5000000, shapeCast S5000000 (extractStridedSlice S1x5000000 ![1, 0] x5 slices_S2x5000000_S1x5000000_1_0) shapeCasts_S1x5000000_S5000000⟩, ⟨S500000, iotaInDim S500000 32 0⟩] concatenates_S5000000_S500000_S5500000_d0

/-- An index list as a column of start indices. -/
def asCol (e : IVec S5500000 32) : IVec S5500000x1 32 :=
  broadcastInDim S5500000x1 ![0] bcast_S5500000_S5500000x1_0 e

/-- An index list with negative entries wrapped by the node count (NumPy's indexing), as a column of start indices. -/
def wrapCol (e : IVec S5500000 32) : IVec S5500000x1 32 :=
  broadcastInDim S5500000x1 ![0] bcast_S5500000_S5500000x1_0
    (select (cmpi .slt e (broadcastInDim S5500000 ![] bcast_S_S5500000 (constantI S_ 32 0#32)))
      (addi e (broadcastInDim S5500000 ![] bcast_S_S5500000 (constantI S_ 32 500000#32))) e)

/-- In-degrees with self loops: one added at every edge's target. -/
def degrees (dst : IVec S5500000 32) : FVec F S500000 .f32 :=
  Host.scatterAdd scatter_S500000_S5500000x1_S5500000_n_0_0_1
    (broadcastInDim S500000 ![] bcast_S_S500000 (constant S_ .f32 0x00000000#32))
    (asCol dst)
    (broadcastInDim S5500000 ![] bcast_S_S5500000 (constant S_ .f32 0x3F800000#32))

/-- The edge weights `D[src] · D[dst]`. -/
def edgeWeights (D : FVec F S500000 .f32) (src dst : IVec S5500000 32) : FVec F S5500000 .f32 :=
  mulf (Host.gather gather_S500000_S5500000x1_S5500000_n_0_n_n_0_1_1 D (wrapCol src))
    (Host.gather gather_S500000_S5500000x1_S5500000_n_0_n_n_0_1_1 D (wrapCol dst))

/-- First round of message passing over 16 features: `out[dst] += H[src] · weight`. -/
def aggregate16 (H : FVec F S500000x16 .f32) (wgt : FVec F S5500000 .f32) (src dst : IVec S5500000 32) : FVec F S500000x16 .f32 :=
  Host.scatterAdd scatter_S500000x16_S5500000x1_S5500000x16_1_0_0_1
    (broadcastInDim S500000x16 ![] bcast_S_S500000x16 (constant S_ .f32 0x00000000#32))
    (asCol dst)
    (mulf (Host.gather gather_S500000x16_S5500000x1_S5500000x16_1_0_n_n_0_1_116 H (wrapCol src))
      (broadcastInDim S5500000x16 ![0, 1] bcast_S5500000x1_S5500000x16_0_1
        (broadcastInDim S5500000x1 ![0] bcast_S5500000_S5500000x1_0 wgt)))

/-- Second round over one feature, the output bias added, flattened to one value per node. -/
def aggregateOut (h2 : FVec F S500000x1 .f32) (wgt : FVec F S5500000 .f32) (x4 : FVec F S1 .f32) (src dst : IVec S5500000 32) : FVec F S500000 .f32 :=
  shapeCast S500000
    (addf
      (Host.scatterAdd scatter_S500000x1_S5500000x1_S5500000x1_1_0_0_1
        (broadcastInDim S500000x1 ![] bcast_S_S500000x1 (constant S_ .f32 0x00000000#32))
        (asCol dst)
        (mulf (Host.gather gather_S500000x1_S5500000x1_S5500000x1_1_0_n_n_0_1_11 h2 (wrapCol src))
          (broadcastInDim S5500000x1 ![0] bcast_S5500000_S5500000x1_0 wgt)))
      (broadcastInDim S500000x1 ![0, 1] bcast_S1x1_S500000x1_0_1 (broadcastInDim S1x1 ![1] bcast_S1_S1x1_1 x4)))
    shapeCasts_S500000x1_S500000

end Cert.KernelIdeal.Hand

end
-- ==== Proof.KHost.lean ====
/-
  The idealized kernel program's three host stretches, read as the shared functions of Proof/Chain.lean:
  what each stretch leaves in the buffers the next region or stretch reads, as a function of what it found.
-/
import proofs.«167294_j87720412054223_1_alg».proof.Proof.Gen.KernelIdeal.Frame
import proofs.«167294_j87720412054223_1_alg».proof.Proof.Chain
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region: the edge lists and the degree column -/

set_option maxHeartbeats 4000000 in
theorem W1_src (c : Dev nD) :
    W1 m ρ c (Proc.devRef .tc main_v5) = srcEnds (m ((c : Thread nD τ).loc main_arg5)) := by
  show StableHlo.after hostOps0 (W0 m ρ c) (Proc.devRef .tc main_v5) = _
  after_results_simp
  rfl

set_option maxHeartbeats 4000000 in
theorem W1_dst (c : Dev nD) :
    W1 m ρ c (Proc.devRef .tc main_v6) = dstEnds (m ((c : Thread nD τ).loc main_arg5)) := by
  show StableHlo.after hostOps0 (W0 m ρ c) (Proc.devRef .tc main_v6) = _
  after_results_simp
  rfl

set_option maxHeartbeats 4000000 in
theorem W1_deg (c : Dev nD) :
    W1 m ρ c (Proc.devRef .tc main_v11)
      = shapeCast S500000x1 (degrees (F := F) (dstEnds (m ((c : Thread nD τ).loc main_arg5)))) shapeCasts_S500000_S500000x1 := by
  show StableHlo.after hostOps0 (W0 m ρ c) (Proc.devRef .tc main_v11) = _
  after_results_simp
  rfl

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp
set_option maxHeartbeats 4000000 in
theorem W1_arg1 (c : Dev nD) : W1 m ρ c (Proc.devRef .tc main_arg1) = m ((c : Thread nD τ).loc main_arg1) := by
  show StableHlo.after hostOps0 (W0 m ρ c) (Proc.devRef .tc main_arg1) = _
  after_results_simp
set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp
set_option maxHeartbeats 4000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp
set_option maxHeartbeats 4000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp

/-! ## Between the regions: the edge weights and the first round of message passing -/

set_option maxHeartbeats 8000000 in
theorem W3_weights (c : Dev nD) :
    W3 m ρ c (Proc.devRef .tc main_v28)
      = edgeWeights (shapeCast S500000 (W2 m ρ c (Proc.devRef .tc main_v12_0)) shapeCasts_S500000x1_S500000)
          (W2 m ρ c (Proc.devRef .tc main_v5)) (W2 m ρ c (Proc.devRef .tc main_v6)) := by
  show StableHlo.after hostOps1 (W2 m ρ c) (Proc.devRef .tc main_v28) = _
  after_results_simp
  rfl

set_option maxHeartbeats 8000000 in
theorem W3_agg (c : Dev nD) :
    W3 m ρ c (Proc.devRef .tc main_v41)
      = aggregate16 (W2 m ρ c (Proc.devRef .tc main_v12_1))
          (edgeWeights (shapeCast S500000 (W2 m ρ c (Proc.devRef .tc main_v12_0)) shapeCasts_S500000x1_S500000)
            (W2 m ρ c (Proc.devRef .tc main_v5)) (W2 m ρ c (Proc.devRef .tc main_v6)))
          (W2 m ρ c (Proc.devRef .tc main_v5)) (W2 m ρ c (Proc.devRef .tc main_v6)) := by
  show StableHlo.after hostOps1 (W2 m ρ c) (Proc.devRef .tc main_v41) = _
  after_results_simp
  rfl

set_option maxHeartbeats 8000000 in
theorem W3_bias (c : Dev nD) :
    W3 m ρ c (Proc.devRef .tc main_v42) = shapeCast S1x16 (W2 m ρ c (Proc.devRef .tc main_arg2)) shapeCasts_S16_S1x16 := by
  show StableHlo.after hostOps1 (W2 m ρ c) (Proc.devRef .tc main_v42) = _
  after_results_simp
  rfl

set_option maxHeartbeats 8000000 in
theorem W3_weightRow (c : Dev nD) :
    W3 m ρ c (Proc.devRef .tc main_v43) = shapeCast S1x16 (W2 m ρ c (Proc.devRef .tc main_arg3)) shapeCasts_S16x1_S1x16 := by
  show StableHlo.after hostOps1 (W2 m ρ c) (Proc.devRef .tc main_v43) = _
  after_results_simp
  rfl

set_option maxHeartbeats 8000000 in
theorem W3_src (c : Dev nD) : W3 m ρ c (Proc.devRef .tc main_v5) = W2 m ρ c (Proc.devRef .tc main_v5) := by
  show StableHlo.after hostOps1 (W2 m ρ c) (Proc.devRef .tc main_v5) = _
  after_results_simp
set_option maxHeartbeats 8000000 in
theorem W3_dst (c : Dev nD) : W3 m ρ c (Proc.devRef .tc main_v6) = W2 m ρ c (Proc.devRef .tc main_v6) := by
  show StableHlo.after hostOps1 (W2 m ρ c) (Proc.devRef .tc main_v6) = _
  after_results_simp
set_option maxHeartbeats 8000000 in
theorem W3_arg4 (c : Dev nD) : W3 m ρ c (Proc.devRef .tc main_arg4) = W2 m ρ c (Proc.devRef .tc main_arg4) := by
  show StableHlo.after hostOps1 (W2 m ρ c) (Proc.devRef .tc main_arg4) = _
  after_results_simp

/-! ## After the second region: the second round of message passing and the output bias -/

set_option maxHeartbeats 4000000 in
theorem W5_out (c : Dev nD) :
    W5 m ρ c (Proc.devRef .tc main_v60)
      = aggregateOut (W4 m ρ c (Proc.devRef .tc main_v44)) (W4 m ρ c (Proc.devRef .tc main_v28))
          (W4 m ρ c (Proc.devRef .tc main_arg4)) (W4 m ρ c (Proc.devRef .tc main_v5)) (W4 m ρ c (Proc.devRef .tc main_v6)) := by
  show StableHlo.after hostOps2 (W4 m ρ c) (Proc.devRef .tc main_v60) = _
  after_results_simp
  rfl

end Cert.KernelIdeal.Hand

end
-- ==== Proof.Spec.lean ====
/-
  The mathematics the two programs share, stated once over literal shapes and importing no program.

  A two-layer graph convolution over 500000 nodes: with deg the in-degree counts (self loops added),
  dinv = deg^(-1/2) where deg > 0 and 0 elsewhere, the first layer's linear map is the outer product
  x · W1 of the node column with the weight row, and the second layer's is, per node, the sum over the
  16 features of relu(agg + b1) · W2.  The three functions below are those pieces; everything between
  them (index wrapping, gathers, scatter-adds) is the same host text on both sides.
-/
import Idealize.ShloMosaic.Lib.ValueIdx

noncomputable section

open scoped BigOperators

namespace Cert.GcnSpec

open Idealize.ShloMosaic

/-- The node column [500000, 1]. -/
abbrev NodeCol : Shape := ⟨2, ![500000, 1]⟩
/-- The node features [500000, 16]. -/
abbrev NodeFeat : Shape := ⟨2, ![500000, 16]⟩
/-- One row of 16 features [1, 16]. -/
abbrev FeatRow : Shape := ⟨2, ![1, 16]⟩

variable {F : FTy → Type} [FloatOps F]

/-- Degree normalisation, entry by entry and at any shape: `1/√(max d 1)` where `d > 0`, else `0`. -/
def invSqrtDeg {S : Shape} (d : FVec F S .f32) : FVec F S .f32 :=
  select (cmpf .ogt d (broadcast S (Scalar.ofBits .f32 0x00000000#32)))
    (rsqrt (maximumf d (broadcast S (Scalar.ofBits .f32 0x3F800000#32))))
    (broadcast S (Scalar.ofBits .f32 0x00000000#32))

/-- The normalisation is entrywise, so it commutes with any re-indexing of its argument. -/
theorem invSqrtDeg_reindex {S T : Shape} (d : FVec F S .f32) (e : T.Idx → S.Idx) :
    invSqrtDeg (fun j => d (e j)) = fun j => invSqrtDeg d (e j) := rfl

/-- Row `n` of the node column, from an index `(n, j)` of the feature array. -/
abbrev rowIdx (i : NodeFeat.Idx) : NodeCol.Idx := fun a => match a with
  | ⟨0, _⟩ => ⟨(i 0).val, (i 0).isLt⟩
  | ⟨1, _⟩ => ⟨0, Nat.one_pos⟩
/-- Column `j` of the weight row, from an index `(n, j)` of the feature array. -/
abbrev colIdx (i : NodeFeat.Idx) : FeatRow.Idx := fun a => match a with
  | ⟨0, _⟩ => ⟨0, Nat.one_pos⟩
  | ⟨1, _⟩ => ⟨(i 1).val, (i 1).isLt⟩

/-- The outer product of the node column with the weight row: entry `(n, j)` is `x n · w j`. -/
def outer (x : FVec F NodeCol .f32) (w : FVec F FeatRow .f32) : FVec F NodeFeat .f32 :=
  fun i => FloatOps.mulf (x (rowIdx i)) (w (colIdx i))

/-- Entry `(n, q)` of the feature array, from node `n`'s index in the column. -/
abbrev featIdx (i : NodeCol.Idx) (q : Fin 16) : NodeFeat.Idx := fun a => match a with
  | ⟨0, _⟩ => ⟨(i 0).val, (i 0).isLt⟩
  | ⟨1, _⟩ => ⟨q.val, q.isLt⟩
/-- Entry `q` of a feature row. -/
abbrev featRowIdx (q : Fin 16) : FeatRow.Idx := fun a => match a with
  | ⟨0, _⟩ => ⟨0, Nat.one_pos⟩
  | ⟨1, _⟩ => ⟨q.val, q.isLt⟩

/-- The second layer's linear map on the extended reals: node `n` gets `∑ q, max (A n q + b q) 0 · w q`
    (the zero is the float word's value, left unevaluated). -/
def reluDot (A : NodeFeat.Idx → EReal) (b w : FeatRow.Idx → EReal) : NodeCol.Idx → EReal :=
  fun i => ∑ q : Fin 16, max (A (featIdx i q) + b (featRowIdx q)) (Ideal.ofBits .f32 0x00000000#32) * w (featRowIdx q)

end Cert.GcnSpec

end
-- ==== Proof.Region0.lean ====
import proofs.«167294_j87720412054223_1_alg».proof.Proof.Gen.KernelIdeal.Frame
import proofs.«167294_j87720412054223_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GcnSpec

variable {F : FTy → Type} [FloatOps F]
variable (V : (c : Dev nD) → (b : Ref sig .tc) → Buf (Elt F) ((c : Thread nD τ).loc b))

/-- The zero offset vector of a rank-2 access, as a constant function. -/
private theorem hz : (![0, 0] : Fin 2 → Nat) = fun _ => 0 := funext fun a => by fin_cases a <;> rfl

/-- The block index of every window of region 0 at point `t`: the row windows sit at row block `t`, the weight row
    at its only block. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The first payload is the degree normalisation of its block. -/
private theorem pay1_eq (v : Vec F S5000x1 .f32) : k0_pay1 v = invSqrtDeg (S := S5000x1) v := by
  show invSqrtDeg (S := S5000x1) (shapeCast S5000x1 v shapeCasts_S5000x1_S5000x1) = _
  rw [shapeCast_self]

/-- What point `t` writes back to window 3 is block `t` of the normalised degree column. -/
private theorem flushed3_eq (c : Dev nD) (t : Fin cfg0.N) :
    (dat0 V c).flushed 3 t = ((cfg0.win 3).blk t).view.read (Elt F) (invSqrtDeg (S := S500000x1) (V c main_v11)) := by
  show (cfg0.win 3).cut (grid0.coords t) ((dat0 V c).after 3 t) = _
  rw [after0_3]
  unfold out0_3
  rw [View.canon_unit_zero hz]
  simp only [View.ld_unit_zero (S := S5000x1) hz]
  rw [pay1_eq]
  obtain ⟨e0, e1, e2, e3, e4, e5, e6, e7, e8, e9⟩ := idx_facts t
  funext j
  show invSqrtDeg (S := S500000x1) (V c main_v11) (((cfg0.win 1).blk t).view.emb j)
      = invSqrtDeg (S := S500000x1) (V c main_v11) (((cfg0.win 3).blk t).view.emb j)
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * (j 1).val = win0_3.index t (1 : Fin 2) * 1 + 1 * (j 1).val; omega
  rw [h1]

/-- An index of the column is in point `t`'s block of window 3 iff each coordinate is in the block's range. -/
private theorem mem_blk3 (t : Fin cfg0.N) (i : S500000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v12_0).slice (win0_3.rect t)).set ↔ _
  rw [View.set_slice_whole, Rect.mem_set_unit]
  exact Iff.rfl

/-- Row `r` of the column lies in the block of point `r / 5000`, and every point writes back. -/
private theorem cover3 (i : S500000x1.Idx) :
    ∃ t : Fin cfg0.N, (cfg0.win 3).flush t = true ∧ i ∈ ((cfg0.win 3).blk t).view.set := by
  have hi0 : (i 0).val < 500000 := (i 0).isLt
  have hi1 : (i 1).val < 1 := (i 1).isLt
  have hq : (i 0).val / 5000 < cfg0.N := by show (i 0).val / 5000 < 100; omega
  obtain ⟨t, ht⟩ : ∃ t : Fin cfg0.N, t.val = (i 0).val / 5000 := ⟨⟨(i 0).val / 5000, hq⟩, rfl⟩
  obtain ⟨-, -, -, -, -, -, e6, e7, -, -⟩ := idx_facts t
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 1 ≤ (i 1).val ∧ (i 1).val < win0_3.index t (1 : Fin 2) * 1 + 1
    omega

/-- Region 0's first output array (window 3) after its 100 points: the degree column normalised entry by entry. -/
theorem region0_invSqrtDeg (c : Dev nD) :
    (dat0 V c).arrAt 3 cfg0.N = invSqrtDeg (S := S500000x1) (V c main_v11) := by
  exact (dat0 V c).arrAt_eq_of_cover 3 _ (fun t _ => flushed3_eq V c t) cover3

/-- Row `n` of a [5000,1] block, from an index `(n, q)` of a [5000,16] block. -/
private abbrev rowOf (j : S5000x16.Idx) : S5000x1.Idx := fun a => match a with
  | ⟨0, _⟩ => ⟨(j 0).val, (j 0).isLt⟩
  | ⟨1, _⟩ => ⟨0, Nat.one_pos⟩
/-- Column `q` of the weight row, from an index `(n, q)` of a [5000,16] block. -/
private abbrev colOf (j : S5000x16.Idx) : S1x16.Idx := fun a => match a with
  | ⟨0, _⟩ => ⟨0, Nat.one_pos⟩
  | ⟨1, _⟩ => ⟨(j 1).val, (j 1).isLt⟩

/-- The second payload at `(n, q)`: the column's entry `n` times the row's entry `q`. -/
private theorem pay2_apply (x : Vec F S5000x1 .f32) (w : Vec F S1x16 .f32) (j : S5000x16.Idx) :
    k0_pay2 x w j = FloatOps.mulf (x (rowOf j)) (w (colOf j)) := by
  show FloatOps.mulf (broadcastTo S5000x16 x broadcasts_S5000x1_S5000x16 j)
      (broadcastTo S5000x16 w broadcasts_S1x16_S5000x16 j) = _
  rw [broadcastTo_apply x _ j (rowOf j) (fun a => by match a with | ⟨0, _⟩ => rfl | ⟨1, _⟩ => rfl),
    broadcastTo_apply w _ j (colOf j) (fun a => by match a with | ⟨0, _⟩ => rfl | ⟨1, _⟩ => rfl)]

/-- What point `t` writes back to window 4 is block `t` of the outer product. -/
private theorem flushed4_eq (c : Dev nD) (t : Fin cfg0.N) :
    (dat0 V c).flushed 4 t = ((cfg0.win 4).blk t).view.read (Elt F) (outer (V c main_arg0) (V c main_arg1)) := by
  show (cfg0.win 4).cut (grid0.coords t) ((dat0 V c).after 4 t) = _
  rw [after0_4]
  unfold out0_4
  rw [View.canon_unit_zero hz]
  simp only [View.ld_unit_zero (S := S5000x1) hz, View.ld_unit_zero (S := S1x16) hz]
  obtain ⟨e0, e1, e2, e3, e4, e5, e6, e7, e8, e9⟩ := idx_facts t
  funext j
  show k0_pay2 (iblk0 V c 0 t) (iblk0 V c 2 t) j
      = outer (V c main_arg0) (V c main_arg1) (((cfg0.win 4).blk t).view.emb j)
  refine (pay2_apply _ _ _).trans ?_
  show FloatOps.mulf (V c main_arg0 (((cfg0.win 0).blk t).view.emb (rowOf j)))
        (V c main_arg1 (((cfg0.win 2).blk t).view.emb (colOf j)))
      = FloatOps.mulf (V c main_arg0 (rowIdx (((cfg0.win 4).blk t).view.emb j)))
        (V c main_arg1 (colIdx (((cfg0.win 4).blk t).view.emb j)))
  have hx : ((cfg0.win 0).blk t).view.emb (rowOf j) = rowIdx (((cfg0.win 4).blk t).view.emb j) := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 1 + 1 * 0 = 0; omega
  have hw : ((cfg0.win 2).blk t).view.emb (colOf j) = colIdx (((cfg0.win 4).blk t).view.emb j) := by
    funext a; apply Fin.ext
    match a with
    | ⟨0, _⟩ => show win0_2.index t (0 : Fin 2) * 1 + 1 * 0 = 0; omega
    | ⟨1, _⟩ => show win0_2.index t (1 : Fin 2) * 16 + 1 * (j 1).val = win0_4.index t (1 : Fin 2) * 16 + 1 * (j 1).val; omega
  rw [hx, hw]

/-- An index of the feature array is in point `t`'s block of window 4 iff each coordinate is in the block's range. -/
private theorem mem_blk4 (t : Fin cfg0.N) (i : S500000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v12_1).slice (win0_4.rect t)).set ↔ _
  rw [View.set_slice_whole, Rect.mem_set_unit]
  exact Iff.rfl

/-- Entry `(r, q)` of the feature array lies in the block of point `r / 5000`, and every point writes back. -/
private theorem cover4 (i : S500000x16.Idx) :
    ∃ t : Fin cfg0.N, (cfg0.win 4).flush t = true ∧ i ∈ ((cfg0.win 4).blk t).view.set := by
  have hi0 : (i 0).val < 500000 := (i 0).isLt
  have hi1 : (i 1).val < 16 := (i 1).isLt
  have hq : (i 0).val / 5000 < cfg0.N := by show (i 0).val / 5000 < 100; omega
  obtain ⟨t, ht⟩ : ∃ t : Fin cfg0.N, t.val = (i 0).val / 5000 := ⟨⟨(i 0).val / 5000, hq⟩, rfl⟩
  obtain ⟨-, -, -, -, -, -, -, -, e8, e9⟩ := idx_facts t
  refine ⟨t, flush0_4 t, ?_⟩
  rw [mem_blk4]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 16 ≤ (i 1).val ∧ (i 1).val < win0_4.index t (1 : Fin 2) * 16 + 16
    omega

/-- Region 0's second output array (window 4) after its 100 points: the outer product of the node column with the weight row. -/
theorem region0_outer (c : Dev nD) :
    (dat0 V c).arrAt 4 cfg0.N = outer (V c main_arg0) (V c main_arg1) := by
  exact (dat0 V c).arrAt_eq_of_cover 4 _ (fun t _ => flushed4_eq V c t) cover4

end Cert.KernelIdeal.Hand

end
-- ==== Proof.Region1.lean ====
import proofs.«167294_j87720412054223_1_alg».proof.Proof.Gen.KernelIdeal.Frame
import proofs.«167294_j87720412054223_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GcnSpec

variable (V : (c : Dev nD) → (b : Ref sig .tc) → Buf (Elt Ideal) ((c : Thread nD τ).loc b))

private theorem hz : (![0, 0] : Fin 2 → Nat) = fun _ => 0 := funext fun a => by fin_cases a <;> rfl

/-- Entry `(n, q)` of a [5000, 16] block, from row `n`'s index in the [5000, 1] block. -/
private abbrev blkIdx (j : S5000x1.Idx) (q : Fin 16) : S5000x16.Idx := fun a => match a with
  | ⟨0, _⟩ => ⟨(j 0).val, (j 0).isLt⟩
  | ⟨1, _⟩ => ⟨q.val, q.isLt⟩

/-- The body's payload read at a row: the sum over the 16 lanes of max (x + b) 0 · w. -/
private theorem pay_apply (x0 : Vec Ideal S5000x16 .f32) (x1 x2 : Vec Ideal S1x16 .f32) (j : S5000x1.Idx) :
    k1_pay1 (F := Ideal) x0 x1 x2 j
      = ∑ q : Fin 16, max (x0 (blkIdx j q) + x1 (featRowIdx q)) (Ideal.ofBits .f32 0x00000000#32) * x2 (featRowIdx q) := by
  unfold k1_pay1
  simp only [shapeCast_self]
  refine (shapeCast_apply _ shapeCasts_S5000_S5000x1 j (ValueIdx.ix1 (⟨(j 0).val, (j 0).isLt⟩ : Fin 5000)) ?_).trans ?_
  · rw [Shape.rowMajor_val_one, Shape.rowMajor_val_two]
    show (j 0).val = (j 0).val * 1 + (j 1).val
    have h1 : (j 1).val < 1 := (j 1).isLt
    omega
  refine (Ideal.multiReduction_add_single (φ := .f32) _ _ reduces_S5000x16_S5000 (.inl rfl) rfl _).trans ?_
  refine Finset.sum_congr rfl fun q _ => ?_
  simp only [ValueIdx.mulf_apply, ValueIdx.maximumf_apply, ValueIdx.addf_apply, ValueIdx.broadcast_apply]
  have hI : reduces_S5000x16_S5000.lift (ValueIdx.ix1 (⟨(j 0).val, (j 0).isLt⟩ : Fin 5000)) q = blkIdx j q := by
    funext a; apply Fin.ext
    match a with
    | ⟨0, _⟩ => rfl
    | ⟨1, _⟩ => rfl
  rw [hI]
  have hb : ∀ x : Vec Ideal S1x16 .f32,
      broadcastTo S5000x16 x broadcasts_S1x16_S5000x16 (blkIdx j q) = x (featRowIdx q) := fun x =>
    broadcastTo_apply x broadcasts_S1x16_S5000x16 (blkIdx j q) (featRowIdx q) fun a => by
      match a with
      | ⟨0, _⟩ => rfl
      | ⟨1, _⟩ => rfl
  rw [hb, hb]
  rfl

/-- The printed index maps, decided once over the 100 points: the row blocks move with the point, the two
    feature rows stay at their one block. -/
private theorem idx_facts : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What point `t` writes back is block `t` of the closed form. -/
private theorem flushed_eq (c : Dev nD) (t : Fin cfg1.N) :
    (dat1 (F := Ideal) V c).flushed 3 t
      = ((cfg1.win 3).blk t).view.read (Elt Ideal) (reluDot (V c main_v41) (V c main_v42) (V c main_v43)) := by
  show (cfg1.win 3).cut (grid1.coords t) ((dat1 (F := Ideal) V c).after 3 t) = _
  rw [after1_3]
  unfold out1_3
  rw [View.canon_unit_zero hz]
  simp only [View.ld_unit_zero (S := S5000x16) hz, View.ld_unit_zero (S := S1x16) hz]
  obtain ⟨e30, e31, e00, e01, e10, e11, e20, e21⟩ := idx_facts t
  funext j
  show k1_pay1 (F := Ideal) (iblk1 V c 0 t) (iblk1 V c 1 t) (iblk1 V c 2 t) j
    = reluDot (V c main_v41) (V c main_v42) (V c main_v43) (((cfg1.win 3).blk t).view.emb j)
  rw [pay_apply]
  unfold reluDot
  refine Finset.sum_congr rfl fun q _ => ?_
  have h0 : ((cfg1.win 0).blk t).view.emb (blkIdx j q) = featIdx (((cfg1.win 3).blk t).view.emb j) q := by
    funext a; apply Fin.ext
    match a with
    | ⟨0, _⟩ =>
      show win1_0.index t (0 : Fin 2) * 5000 + 1 * (j 0).val = win1_3.index t (0 : Fin 2) * 5000 + 1 * (j 0).val
      rw [e00, e30]
    | ⟨1, _⟩ =>
      show win1_0.index t (1 : Fin 2) * 16 + 1 * q.val = q.val
      rw [e01]; omega
  have h1 : ((cfg1.win 1).blk t).view.emb (featRowIdx q) = featRowIdx q := by
    funext a; apply Fin.ext
    match a with
    | ⟨0, _⟩ =>
      show win1_1.index t (0 : Fin 2) * 1 + 1 * 0 = 0
      rw [e10]
    | ⟨1, _⟩ =>
      show win1_1.index t (1 : Fin 2) * 16 + 1 * q.val = q.val
      rw [e11]; omega
  have h2 : ((cfg1.win 2).blk t).view.emb (featRowIdx q) = featRowIdx q := by
    funext a; apply Fin.ext
    match a with
    | ⟨0, _⟩ =>
      show win1_2.index t (0 : Fin 2) * 1 + 1 * 0 = 0
      rw [e20]
    | ⟨1, _⟩ =>
      show win1_2.index t (1 : Fin 2) * 16 + 1 * q.val = q.val
      rw [e21]; omega
  have r0 : @Eq EReal (iblk1 V c 0 t (blkIdx j q))
      (V c main_v41 (featIdx (((cfg1.win 3).blk t).view.emb j) q)) := by
    show @Eq EReal (V c main_v41 (((cfg1.win 0).blk t).view.emb (blkIdx j q))) _
    rw [h0]
  have r1 : @Eq EReal (iblk1 V c 1 t (featRowIdx q)) (V c main_v42 (featRowIdx q)) := by
    show @Eq EReal (V c main_v42 (((cfg1.win 1).blk t).view.emb (featRowIdx q))) _
    rw [h1]
  have r2 : @Eq EReal (iblk1 V c 2 t (featRowIdx q)) (V c main_v43 (featRowIdx q)) := by
    show @Eq EReal (V c main_v43 (((cfg1.win 2).blk t).view.emb (featRowIdx q))) _
    rw [h2]
  rw [r0, r1, r2]

/-- An index of the array is in point `t`'s block iff each coordinate is in the block's range on its axis. -/
private theorem mem_blk (t : Fin cfg1.N) (i : S500000x1.Idx) :
    i ∈ ((cfg1.win 3).blk t).view.set ↔ ∀ a : Fin 2, win1_3.index t a * S5000x1.size a ≤ (i a).val
      ∧ (i a).val < win1_3.index t a * S5000x1.size a + S5000x1.size a := by
  show i ∈ ((View.whole main_v44).slice (win1_3.rect t)).set ↔ _
  rw [View.set_slice_whole, Rect.mem_set_unit]
  exact Iff.rfl

/-- Region 1's output array (window 3) after its 100 points, on the extended reals: per node the sum over the
    16 features of relu(agg + b) · w. -/
theorem region1_reluDot (c : Dev nD) :
    (dat1 (F := Ideal) V c).arrAt 3 cfg1.N = reluDot (V c main_v41) (V c main_v42) (V c main_v43) := by
  refine (dat1 (F := Ideal) V c).arrAt_eq_of_cover 3 _ (fun t _ => flushed_eq V c t) fun i => ?_
  have hi0 : (i 0).val < 500000 := (i 0).isLt
  have hi1 : (i 1).val < 1 := (i 1).isLt
  have ht : (i 0).val / 5000 < cfg1.N := by rw [show cfg1.N = 100 from N_1]; omega
  refine ⟨⟨(i 0).val / 5000, ht⟩, flush1_3 _, ?_⟩
  rw [mem_blk]
  obtain ⟨e30, e31, -⟩ := idx_facts ⟨(i 0).val / 5000, ht⟩
  have e30' : win1_3.index ⟨(i 0).val / 5000, ht⟩ (0 : Fin 2) = (i 0).val / 5000 := e30
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30']; omega
  | ⟨1, _⟩ =>
    show win1_3.index ⟨(i 0).val / 5000, ht⟩ (1 : Fin 2) * 1 ≤ (i 1).val
      ∧ (i 1).val < win1_3.index ⟨(i 0).val / 5000, ht⟩ (1 : Fin 2) * 1 + 1
    rw [e31]; omega

end Cert.KernelIdeal.Hand

end
-- ==== Proof.KValue.lean ====
/-
  The idealized kernel program's result as one function of its arguments, on the extended reals: the fold of
  its five segments read backwards from the result buffer — the second round of message passing over region 1's
  array (per node the lane sum of relu(agg + b1) · W2), that over the first round's aggregate of region 0's outer
  product, both weighted by region 0's normalised degrees — and the run restated with it.
-/
import proofs.«167294_j87720412054223_1_alg».proof.Proof.KRun
import proofs.«167294_j87720412054223_1_alg».proof.Proof.KHost
import proofs.«167294_j87720412054223_1_alg».proof.Proof.Region0
import proofs.«167294_j87720412054223_1_alg».proof.Proof.Region1

set_option maxRecDepth 16384

noncomputable section

namespace Cert.KernelIdeal.Hand

open Cert.KernelIdeal Cert.KernelIdeal.Gen Cert.GcnSpec
open Idealize.ShloMosaic Idealize.ShloMosaic.TcCoe Idealize.SL.Sem

/-- The kernel program's value: the arguments are `x0` the node column, `x1` the first weight row, `x2` the first
    bias, `x3` the second weight column, `x4` the output bias and `x5` the edge array. -/
def kernelValue (x0 : FVec Ideal S500000x1 .f32) (x1 : FVec Ideal S1x16 .f32) (x2 : FVec Ideal S16 .f32)
    (x3 : FVec Ideal S16x1 .f32) (x4 : FVec Ideal S1 .f32) (x5 : IVec S2x5000000 32) : FVec Ideal S500000 .f32 :=
  aggregateOut
    (reluDot
      (aggregate16 (outer (F := Ideal) x0 x1)
        (edgeWeights (shapeCast S500000 (invSqrtDeg (F := Ideal) (S := S500000x1) (shapeCast S500000x1 (degrees (F := Ideal) (dstEnds x5)) shapeCasts_S500000_S500000x1)) shapeCasts_S500000x1_S500000)
          (srcEnds x5) (dstEnds x5))
        (srcEnds x5) (dstEnds x5))
      (shapeCast S1x16 x2 shapeCasts_S16_S1x16) (shapeCast S1x16 x3 shapeCasts_S16x1_S1x16))
    (edgeWeights (shapeCast S500000 (invSqrtDeg (F := Ideal) (S := S500000x1) (shapeCast S500000x1 (degrees (F := Ideal) (dstEnds x5)) shapeCasts_S500000_S500000x1)) shapeCasts_S500000x1_S500000)
      (srcEnds x5) (dstEnds x5))
    x4 (srcEnds x5) (dstEnds x5)

variable (m : (ℓ : Loc nD τ sig) → Buf (Elt Ideal) ℓ) (ρ : Dev nD → PrngReg)

/-- The last boundary's contents at the result buffer are `kernelValue` of the launch contents of the arguments. -/
theorem W5_result (c : Dev nD) :
    W5 m ρ c (Proc.devRef .tc main_v60)
      = kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- region 1's array and the buffers the last stretch reads that region 1 leaves alone
  have h44 : W4 m ρ c (Proc.devRef .tc main_v44)
      = reluDot (W3 m ρ c (Proc.devRef .tc main_v41)) (W3 m ρ c (Proc.devRef .tc main_v42)) (W3 m ρ c (Proc.devRef .tc main_v43)) :=
    (W4_arr m ρ c 3).trans (region1_reluDot (V3 m ρ) c)
  have h28 : W4 m ρ c (Proc.devRef .tc main_v28) = W3 m ρ c (Proc.devRef .tc main_v28) := W4_of_ne m ρ c main_v28 (by decide)
  have h5 : W4 m ρ c (Proc.devRef .tc main_v5) = W3 m ρ c (Proc.devRef .tc main_v5) := W4_of_ne m ρ c main_v5 (by decide)
  have h6 : W4 m ρ c (Proc.devRef .tc main_v6) = W3 m ρ c (Proc.devRef .tc main_v6) := W4_of_ne m ρ c main_v6 (by decide)
  have h4 : W4 m ρ c (Proc.devRef .tc main_arg4) = W3 m ρ c (Proc.devRef .tc main_arg4) := W4_of_ne m ρ c main_arg4 (by decide)
  -- region 0's two arrays and the buffers the middle stretch reads that region 0 leaves alone
  have g0 : W2 m ρ c (Proc.devRef .tc main_v12_0) = invSqrtDeg (F := Ideal) (S := S500000x1) (W1 m ρ c (Proc.devRef .tc main_v11)) :=
by
    have h := W2_arr m ρ c 3
    rw [region0_invSqrtDeg (V1 m ρ) c] at h
    exact h
  have g1 : W2 m ρ c (Proc.devRef .tc main_v12_1) = outer (F := Ideal) (W1 m ρ c (Proc.devRef .tc main_arg0)) (W1 m ρ c (Proc.devRef .tc main_arg1)) :=
by
    have h := W2_arr m ρ c 4
    rw [region0_outer (V1 m ρ) c] at h
    exact h
  have g5 : W2 m ρ c (Proc.devRef .tc main_v5) = W1 m ρ c (Proc.devRef .tc main_v5) := W2_of_ne m ρ c main_v5 (by decide)
  have g6 : W2 m ρ c (Proc.devRef .tc main_v6) = W1 m ρ c (Proc.devRef .tc main_v6) := W2_of_ne m ρ c main_v6 (by decide)
  have a2 : W2 m ρ c (Proc.devRef .tc main_arg2) = W1 m ρ c (Proc.devRef .tc main_arg2) := W2_of_ne m ρ c main_arg2 (by decide)
  have a3 : W2 m ρ c (Proc.devRef .tc main_arg3) = W1 m ρ c (Proc.devRef .tc main_arg3) := W2_of_ne m ρ c main_arg3 (by decide)
  have a4 : W2 m ρ c (Proc.devRef .tc main_arg4) = W1 m ρ c (Proc.devRef .tc main_arg4) := W2_of_ne m ρ c main_arg4 (by decide)
  rw [W5_out, h44, h28, h5, h6, h4, W3_agg, W3_bias, W3_weightRow, W3_weights, W3_src, W3_dst, W3_arg4,
    g0, g1, g5, g6, a2, a3, a4, W1_deg, W1_src, W1_dst, W1_arg0, W1_arg1, W1_arg2, W1_arg3, W1_arg4]
  rfl

/-- The run of the idealized kernel program, its result named: every weakly fair execution terminates with the
    result array at `kernelValue` of the arguments, the arguments unchanged. -/
theorem run : θ_run defs (onTc (τ := τ) (main (F := Ideal))) ⟨m, fun _ => 0, ρ⟩ (fun r => ∀ c : Dev nD,
      r.2.mem ((c.tc : Thread nD τ).loc main_v60)
        = kernelValue (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W5_result m ρ c), (h c).2⟩) (run_result m ρ)

end Cert.KernelIdeal.Hand

end
-- ==== Proof.RefStages.lean ====
/-
  The reference program's stages regrouped: its value is the shared host text of Proof/Chain.lean applied to
  its own three pieces — the degree normalisation on the flat degree vector, the first linear map as a
  contraction over one index, the second as bias, relu and a contraction over the 16 features.
-/
import proofs.«167294_j87720412054223_1_alg».proof.Proof.RefRead
import proofs.«167294_j87720412054223_1_alg».proof.Proof.Chain

noncomputable section

namespace Cert.ReferenceIdeal.Hand

open Cert.ReferenceIdeal Cert.ReferenceIdeal.Gen Cert.ReferenceIdeal.ReadP Idealize.ShloMosaic

variable {F : FTy → Type} [FloatOps F]

/-- The reference's degree normalisation, on the flat degree vector. -/
def refNorm (deg : FVec F S500000 .f32) : FVec F S500000 .f32 :=
  select (cmpf .ogt deg (broadcastInDim S500000 ![] bcast_S_S500000 (constant S_ .f32 0x00000000#32)))
    (Host.rsqrt (maximumf deg (broadcastInDim S500000 ![] bcast_S_S500000 (constant S_ .f32 0x3F800000#32))))
    (broadcastInDim S500000 ![] bcast_S_S500000 (id (constant S_ .f32 0x00000000#32)))

/-- The reference's second linear map: add the bias row, clamp at zero, contract the 16 features with the weight column. -/
def refLin2 (A : FVec F S500000x16 .f32) (x2 : FVec F S16 .f32) (x3 : FVec F S16x1 .f32) : FVec F S500000x1 .f32 :=
  Host.dotGeneral dot_S500000x16_S16x1_S500000x1_1_0_0_1_n_n none
    (maximumf (addf A (broadcastInDim S500000x16 ![0, 1] bcast_S1x16_S500000x16_0_1 (broadcastInDim S1x16 ![1] bcast_S16_S1x16_1 x2)))
      (broadcastInDim S500000x16 ![] bcast_S_S500000x16 (constant S_ .f32 0x00000000#32)))
    x3

variable (x0 : FVec F S500000x1 .f32) (x1 : FVec F S1x16 .f32) (x2 : FVec F S16 .f32) (x3 : FVec F S16x1 .f32)
  (x4 : FVec F S1 .f32) (x5 : IVec S2x5000000 32)

theorem stage_src : val_main_v5 (F := F) x5 = Cert.KernelIdeal.Hand.srcEnds x5 := rfl
theorem stage_dst : val_main_v6 (F := F) x5 = Cert.KernelIdeal.Hand.dstEnds x5 := rfl

theorem stage_deg : val_main_v10 (F := F) x5 = Cert.KernelIdeal.Hand.degrees (val_main_v6 (F := F) x5) := rfl

theorem stage_norm : val_main_v16 (F := F) x5 = refNorm (val_main_v10 (F := F) x5) := rfl

theorem stage_weights : val_main_v31 (F := F) x5
    = Cert.KernelIdeal.Hand.edgeWeights (val_main_v16 (F := F) x5) (val_main_v5 (F := F) x5) (val_main_v6 (F := F) x5) := rfl

theorem stage_agg : val_main_v45 (F := F) x0 x1 x5
    = Cert.KernelIdeal.Hand.aggregate16 (val_main_v32 (F := F) x0 x1) (val_main_v31 (F := F) x5) (val_main_v5 (F := F) x5) (val_main_v6 (F := F) x5) := rfl

theorem stage_lin2 : val_main_v50 (F := F) x0 x1 x2 x3 x5 = refLin2 (val_main_v45 (F := F) x0 x1 x5) x2 x3 := rfl

theorem stage_out : val_main_v66 (F := F) x0 x1 x2 x3 x4 x5
    = Cert.KernelIdeal.Hand.aggregateOut (val_main_v50 (F := F) x0 x1 x2 x3 x5) (val_main_v31 (F := F) x5) x4
        (val_main_v5 (F := F) x5) (val_main_v6 (F := F) x5) := rfl

end Cert.ReferenceIdeal.Hand

end
-- ==== Proof.Bridge.lean ====
/-
  The three places where the two programs compute differently, joined on the extended reals:
  the degree normalisation taken on the column and flattened is the one taken on the flat vector
  (it is entrywise, and the two reshapes undo each other); the outer product x · w is the contraction
  over the one shared index; and per node the lane sum of relu(a + b) · w is the contraction over the 16
  features, the bias and weight read through their reshapes.
-/
import proofs.«167294_j87720412054223_1_alg».proof.Proof.RefStages
import proofs.«167294_j87720412054223_1_alg».proof.Proof.Spec
import Idealize.ShloMosaic.Lib.Pipeline.Value
import Idealize.ShloMosaic.Lib.ValueIdx
import Idealize.ShloMosaic.PureOps.Ideal.Laws

noncomputable section

open scoped BigOperators

namespace Cert.Bridge

open Cert.ReferenceIdeal Cert.ReferenceIdeal.Gen Cert.ReferenceIdeal.ReadP Cert.ReferenceIdeal.Hand Cert.GcnSpec
open Idealize.ShloMosaic Idealize.ShloMosaic.ValueIdx

/-- The normalisation of the degree column, flattened, is the reference's normalisation of the flat degrees. -/
theorem norm_eq (deg : FVec Ideal S500000 .f32) (h1 : S500000.ShapeCasts S500000x1) (h2 : S500000x1.ShapeCasts S500000) :
    shapeCast S500000 (invSqrtDeg (F := Ideal) (S := S500000x1) (shapeCast S500000x1 deg h1)) h2 = refNorm deg := by
  have e : invSqrtDeg (F := Ideal) (S := S500000x1) (shapeCast S500000x1 deg h1) = shapeCast S500000x1 (invSqrtDeg deg) h1 := rfl
  rw [e, shapeCast_shapeCast]
  funext i
  rfl

/-- The outer product is the contraction over the one shared index. -/
theorem lin1_eq (x0 : FVec Ideal S500000x1 .f32) (x1 : FVec Ideal S1x16 .f32) :
    outer (F := Ideal) x0 x1 = val_main_v32 (F := Ideal) x0 x1 := by
  funext i
  rw [val_main_v32_apply, Fin.sum_univ_one]
  have e1 : rowIdx i = lidx_main_v32 i 0 := funext fun a => by match a with | ⟨0, _⟩ => rfl | ⟨1, _⟩ => rfl
  have e2 : colIdx i = ridx_main_v32 i 0 := funext fun a => by match a with | ⟨0, _⟩ => rfl | ⟨1, _⟩ => rfl
  show x0 (rowIdx i) * x1 (colIdx i) = _
  rw [e1, e2]

/-- The host's contraction of a [500000,16] array with the [16,1] weight column, read at a node. -/
theorem dot16_apply (M : FVec Ideal S500000x16 .f32) (x3 : FVec Ideal S16x1 .f32) (i : S500000x1.Idx) :
    Host.dotGeneral dot_S500000x16_S16x1_S500000x1_1_0_0_1_n_n none M x3 i
      = ∑ k : Fin 16, M (lidx_main_v50 i k) * x3 (ridx_main_v50 i k) := by
  simp only [Host.dotGeneral]
  rw [Ideal.dotGeneral_apply, ← Equiv.sum_comp (ValueIdx.contrEquiv1 dot_S500000x16_S16x1_S500000x1_1_0_0_1_n_n 16 rfl rfl).symm]
  refine Finset.sum_congr rfl fun k _ => ?_
  have hk := ValueIdx.contrEquiv1_symm_val dot_S500000x16_S16x1_S500000x1_1_0_0_1_n_n 16 rfl rfl k
  have el : dot_S500000x16_S16x1_S500000x1_1_0_0_1_n_n.lhsIdx i ((ValueIdx.contrEquiv1 dot_S500000x16_S16x1_S500000x1_1_0_0_1_n_n 16 rfl rfl).symm k) = lidx_main_v50 i k := funext fun a => Fin.ext (by
    match a with
    | ⟨0, _⟩ => exact lhs_main_v50_0 _ _
    | ⟨1, _⟩ => exact (lhs_main_v50_1 _ _).trans hk)
  have er : dot_S500000x16_S16x1_S500000x1_1_0_0_1_n_n.rhsIdx i ((ValueIdx.contrEquiv1 dot_S500000x16_S16x1_S500000x1_1_0_0_1_n_n 16 rfl rfl).symm k) = ridx_main_v50 i k := funext fun a => Fin.ext (by
    match a with
    | ⟨0, _⟩ => exact (rhs_main_v50_0 _ _).trans hk
    | ⟨1, _⟩ => exact rhs_main_v50_1 _ _)
  rw [el, er]

/-- Per node, the sum over the 16 features of relu(a + b) · w is the reference's contraction, the bias and the
    weight read through their reshapes to a row. -/
theorem lin2_eq (A : FVec Ideal S500000x16 .f32) (x2 : FVec Ideal S16 .f32) (x3 : FVec Ideal S16x1 .f32)
    (h2 : S16.ShapeCasts S1x16) (h3 : S16x1.ShapeCasts S1x16) :
    reluDot A (shapeCast S1x16 x2 h2) (shapeCast S1x16 x3 h3) = refLin2 (F := Ideal) A x2 x3 := by
  funext i
  unfold refLin2
  rw [dot16_apply]
  unfold reluDot
  refine Finset.sum_congr rfl fun q _ => ?_
  have eA : featIdx i q = lidx_main_v50 i q := funext fun a => by match a with | ⟨0, _⟩ => rfl | ⟨1, _⟩ => rfl
  have eb : shapeCast S1x16 x2 h2 (featRowIdx q) = x2 (ix1 q) :=
    shapeCast_apply x2 h2 (featRowIdx q) (ix1 q) (by
      rw [Shape.rowMajor_val_one, Shape.rowMajor_val_two]; show q.val = 0 * 16 + q.val; omega)
  have ew : shapeCast S1x16 x3 h3 (featRowIdx q) = x3 (ridx_main_v50 i q) :=
    shapeCast_apply x3 h3 (featRowIdx q) (ridx_main_v50 i q) (by
      rw [Shape.rowMajor_val_two, Shape.rowMajor_val_two]
      have hi : (i 1).val < 1 := (i 1).isLt
      show q.val * 1 + (i 1).val = 0 * 16 + q.val; omega)
  have eb' : broadcastInDim S500000x16 ![0, 1] bcast_S1x16_S500000x16_0_1 (broadcastInDim S1x16 ![1] bcast_S16_S1x16_1 x2) (lidx_main_v50 i q) = x2 (ix1 q) := by
    rw [broadcastInDim_apply ![0, 1] bcast_S1x16_S500000x16_0_1 _ (lidx_main_v50 i q) (featRowIdx q) (fun a => by match a with | ⟨0, _⟩ => rfl | ⟨1, _⟩ => rfl),
      broadcastInDim_apply ![1] bcast_S16_S1x16_1 x2 (featRowIdx q) (ix1 q) (fun a => by match a with | ⟨0, _⟩ => rfl)]
  show max (A (featIdx i q) + shapeCast S1x16 x2 h2 (featRowIdx q)) (Ideal.ofBits .f32 0x00000000#32) * shapeCast S1x16 x3 h3 (featRowIdx q)
    = max (A (lidx_main_v50 i q) + broadcastInDim S500000x16 ![0, 1] bcast_S1x16_S500000x16_0_1 (broadcastInDim S1x16 ![1] bcast_S16_S1x16_1 x2) (lidx_main_v50 i q)) (Ideal.ofBits .f32 0x00000000#32) * x3 (ridx_main_v50 i q)
  rw [eA, eb, ew, eb']

end Cert.Bridge

end
-- ==== Proof.Final.lean ====
/-
  The two values are one function of the arguments, on the extended reals: the reference's stages regroup into
  the shared host text over its three pieces (Proof/RefStages.lean), the kernel program's segments fold into the
  same text over its three pieces (Proof/KValue.lean), and the pieces agree (Proof/Bridge.lean).
-/
import proofs.«167294_j87720412054223_1_alg».proof.Proof.KValue
import proofs.«167294_j87720412054223_1_alg».proof.Proof.Bridge

noncomputable section

namespace Cert.Final

open Cert.ReferenceIdeal Cert.ReferenceIdeal.ReadP Cert.ReferenceIdeal.Hand Idealize.ShloMosaic

theorem value_eq (x0 : FVec Ideal S500000x1 .f32) (x1 : FVec Ideal S1x16 .f32) (x2 : FVec Ideal S16 .f32)
    (x3 : FVec Ideal S16x1 .f32) (x4 : FVec Ideal S1 .f32) (x5 : IVec S2x5000000 32) :
    val_main_v66 (F := Ideal) x0 x1 x2 x3 x4 x5 = Cert.KernelIdeal.Hand.kernelValue x0 x1 x2 x3 x4 x5 := by
  rw [stage_out, stage_lin2, stage_agg, stage_weights, stage_norm, stage_deg, stage_src, stage_dst]
  unfold Cert.KernelIdeal.Hand.kernelValue
  rw [Cert.Bridge.lin1_eq, Cert.Bridge.lin2_eq, Cert.Bridge.norm_eq]

end Cert.Final

end
-- ==== Proof.lean ====
/-
  A two-layer graph convolution on 500000 nodes and 5500000 edges (the given edges and one self loop per node):
  the kernel program computes the degree normalisation and the first linear map in one pallas_call and the
  bias, relu and second linear map in another, with the edge gathers and scatter-adds on the host between
  them; the reference does everything on the host. On the extended reals the two agree, for every edge array
  and with no use of finiteness: the normalisation is entrywise and the two reshapes around it cancel, the
  outer product x · W1 is the contraction over the one shared index, the lane sum of relu(agg + b1) · W2 is
  the contraction over the 16 features, and everything else is the same host text on both sides.

  The frames of the two kernel programs are the generated ones; the reference's frame is its run with the result
  dropped; the idealization rewrote nothing.
-/
import proofs.«167294_j87720412054223_1_alg».proof.Defs
import proofs.«167294_j87720412054223_1_alg».proof.Proof.Gen.Kernel
import proofs.«167294_j87720412054223_1_alg».proof.Proof.Gen.Kernel.Frame
import proofs.«167294_j87720412054223_1_alg».proof.Proof.Gen.KernelIdeal
import proofs.«167294_j87720412054223_1_alg».proof.Proof.Gen.KernelIdeal.Frame
import proofs.«167294_j87720412054223_1_alg».proof.Proof.Gen.ReferenceIdeal
import proofs.«167294_j87720412054223_1_alg».proof.Proof.Gen.Pre_finite_inputs
import proofs.«167294_j87720412054223_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end, from memories agreeing on the arguments, with the result at the same function of them. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.ReferenceIdeal.ReadP.val_main_v66_eq, e0, e1, e2, e3, e4, e5]
  exact Cert.Final.value_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
